-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S2000x256 : Shape := ⟨2, ![2000, 256]⟩
abbrev S2000x128 : Shape := ⟨2, ![2000, 128]⟩
abbrev S1600000x128 : Shape := ⟨2, ![1600000, 128]⟩
abbrev S100000x1 : Shape := ⟨2, ![100000, 1]⟩
abbrev S1x128 : Shape := ⟨2, ![1, 128]⟩
abbrev S2000x1 : Shape := ⟨2, ![2000, 1]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 80
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S1x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x1, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x1, .f32⟩
  | .hbm, ⟨78, _⟩ => ⟨S1x64, .f32⟩
  | .hbm, ⟨79, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | .hbm, ⟨121, _⟩ => ⟨S_, .f32⟩
  | .hbm, ⟨122, _⟩ => ⟨S100000x64, .f32⟩
  | .hbm, ⟨123, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Spec.lean ====
/-
  The two whole-array functions the four kernel regions compute, index by index, on the extended reals.

  `prod x w` is the matrix product: entry (r, q) is the sum over k of x (r, k) · w (k, q).
  `combine agg h s b` is one layer's closing step: entry (r, q) is max ((agg (r, q) + h (r, q) · s r) + b q) 0,
  the neighbour sum plus the node's own row scaled by its self weight, plus the bias, clipped below at zero.
  The zero is kept as the float pattern it is printed as; nothing here evaluates it.
-/
import Idealize.ShloMosaic.PureOps.Ideal
import Idealize.ShloMosaic.Lib.ValueIdx

noncomputable section

namespace Cert.Spec

open Idealize.ShloMosaic Idealize.ShloMosaic.ValueIdx

/-- The matrix product of an [M × K] array and a [K × N] array. -/
def prod {M K N : ℕ} (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

theorem prod_apply {M K N : ℕ} (x : (⟨2, ![M, K]⟩ : Shape).Idx → EReal) (w : (⟨2, ![K, N]⟩ : Shape).Idx → EReal)
    (p : Fin M) (q : Fin N) : prod x w (ix2 p q) = ∑ k : Fin K, x (ix2 p k) * w (ix2 k q) := rfl

/-- A layer's closing step on [M × N] arrays: neighbour sum, plus own row times the row's self weight, plus the
    column's bias, clipped below at zero. -/
def combine {M N : ℕ} (agg h : (⟨2, ![M, N]⟩ : Shape).Idx → EReal) (s : (⟨1, ![M]⟩ : Shape).Idx → EReal)
    (b : (⟨1, ![N]⟩ : Shape).Idx → EReal) : (⟨2, ![M, N]⟩ : Shape).Idx → EReal :=
  fun j => max ((agg j + h j * s (ix1 (j 0))) + b (ix1 (j 1))) (Ideal.ofBits .f32 0x00000000#32)

theorem combine_apply {M N : ℕ} (agg h : (⟨2, ![M, N]⟩ : Shape).Idx → EReal) (s : (⟨1, ![M]⟩ : Shape).Idx → EReal)
    (b : (⟨1, ![N]⟩ : Shape).Idx → EReal) (p : Fin M) (q : Fin N) :
    combine agg h s b (ix2 p q)
      = max ((agg (ix2 p q) + h (ix2 p q) * s (ix1 p)) + b (ix1 q)) (Ideal.ofBits .f32 0x00000000#32) := rfl

end Cert.Spec

end
-- ==== Proof.KDense0.lean ====
/-
  Region 0: the first dense product, block of 2000 rows by block.

  Grid point t loads rows 2000·t … 2000·t + 1999 of x (all 256 columns) and the whole of W1, and stores their
  product as rows 2000·t … 2000·t + 1999 of the result. The fifty row blocks tile the 100000 rows, so after the
  region the result array is the product of the two arrays, entry by entry.
-/
import proofs.«139974_j17901423690367_1_alg».proof.Proof.Gen.KernelIdeal.Frame
import proofs.«139974_j17901423690367_1_alg».proof.Proof.LibDense
import proofs.«139974_j17901423690367_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored block at (p, q) is the sum over k of the row block at (p, k) times the weights at (k, q): a change of
    float format is the identity, and the product starts from zero. -/
theorem pay_apply (x0 : Vec Ideal S2000x256 .f32) (x1 : Vec Ideal S256x128 .f32) (p : Fin 2000) (q : Fin 128) :
    k0_pay1 x0 x1 (ix2 p q) = ∑ k : Fin 256, x0 (ix2 p k) * x1 (ix2 k q) := by
  unfold k0_pay1
  refine (Cert.LibDense.matmul_zero_apply dot_S2000x256_S256x128_S2000x128_1_0_0_1_n_n none rfl rfl rfl rfl rfl rfl _ _ p q).trans ?_
  rfl

theorem pay_eq (x0 : Vec Ideal S2000x256 .f32) (x1 : Vec Ideal S256x128 .f32) :
    k0_pay1 x0 x1 = fun j => ∑ k : Fin 256, x0 (ix2 (j 0) k) * x1 (ix2 k (j 1)) := by
  funext j
  obtain ⟨p, q, rfl⟩ : ∃ (p : Fin 2000) (q : Fin 128), j = ix2 p q := ⟨j 0, j 1, eq_ix2 j⟩
  exact pay_apply x0 x1 p q

/-- Where the printed index maps send a grid point: the row-blocked windows to block row t, column block 0; the
    weights to their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the two arrays as the region finds them. -/
abbrev G (c : Dev nD) : Vec Ideal S100000x128 .f32 :=
  Cert.Spec.prod (M := 100000) (K := 256) (N := 128) (V c main_arg0) (V c main_arg2)

/-- The blocks and arrays at their literal types. -/
abbrev xblk (c : Dev nD) (t : Fin cfg0.N) : Vec Ideal S2000x256 .f32 := iblk0 V c 0 t
abbrev wblk (c : Dev nD) (t : Fin cfg0.N) : Vec Ideal S256x128 .f32 := iblk0 V c 1 t
abbrev xarr (c : Dev nD) : Vec Ideal S100000x256 .f32 := V c main_arg0
abbrev warr (c : Dev nD) : Vec Ideal S256x128 .f32 := V c main_arg2

/-- What point t writes back is block t of the product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  funext j
  show k0_pay1 (iblk0 V c 0 t) (iblk0 V c 1 t) j = G V c (((cfg0.win 2).blk t).view.emb j)
  refine (congrFun (pay_eq (iblk0 V c 0 t) (iblk0 V c 1 t)) j).trans ?_
  obtain ⟨e00, e01, e10, e11, e20, e21⟩ := idx_facts t
  show ∑ k : Fin 256, xblk V c t (ix2 (j 0) k) * wblk V c t (ix2 k (j 1))
    = ∑ k : Fin 256, xarr V c (ix2 ((((cfg0.win 2).blk t).view.emb j) 0) k) * warr V c (ix2 k ((((cfg0.win 2).blk t).view.emb j) 1))
  refine Finset.sum_congr rfl fun k _ => ?_
  have hx : xblk V c t (ix2 (j 0) k) = xarr V c (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hw : wblk V c t (ix2 k (j 1)) = warr V c (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hx, hw]

/-- An index of the result array lies in point t's block when its row lies in the block's 2000 rows. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- Every index of the result array lies in the block of the point its row block names. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 2000, by show (i 0).val / 2000 < 50; omega⟩, flush0_2 _, ?_⟩
  rw [mem_blk]
  obtain ⟨e00, e01, e10, e11, e20, e21⟩ := idx_facts ⟨(i 0).val / 2000, by show (i 0).val / 2000 < 50; omega⟩
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e21]; omega

/-- After the region the result array is the product of the arrays it found. -/
theorem final (c : Dev nD) : (dat0 V c).arrAt 2 cfg0.N = G V c :=
  (dat0 V c).arrAt_eq_of_cover 2 (G V c) (fun t _ => flushed_eq V c t) cover

end Cert.KernelIdeal.Dense0

end
-- ==== Proof.KDense2.lean ====
/-
  Region 2: the second dense product, block of 2000 rows by block.

  Grid point t loads rows 2000·t … 2000·t + 1999 of the first layer's output (all 128 columns) and the whole of W2,
  and stores their product as rows 2000·t … 2000·t + 1999 of the result. The fifty row blocks tile the 100000 rows,
  so after the region the result array is the product of the two arrays, entry by entry.
-/
import proofs.«139974_j17901423690367_1_alg».proof.Proof.Gen.KernelIdeal.Frame
import proofs.«139974_j17901423690367_1_alg».proof.Proof.LibDense
import proofs.«139974_j17901423690367_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored block at (p, q) is the sum over k of the row block at (p, k) times the weights at (k, q): the cast of the
    row block to its own shape and the changes of float format are the identity, and the product starts from zero. -/
theorem pay_apply (x0 : Vec Ideal S2000x128 .f32) (x1 : Vec Ideal S128x64 .f32) (p : Fin 2000) (q : Fin 64) :
    k2_pay1 x0 x1 (ix2 p q) = ∑ k : Fin 128, x0 (ix2 p k) * x1 (ix2 k q) := by
  unfold k2_pay1
  rw [shapeCast_self]
  refine (Cert.LibDense.matmul_zero_apply dot_S2000x128_S128x64_S2000x64_1_0_0_1_n_n none rfl rfl rfl rfl rfl rfl _ _ p q).trans ?_
  rfl

theorem pay_eq (x0 : Vec Ideal S2000x128 .f32) (x1 : Vec Ideal S128x64 .f32) :
    k2_pay1 x0 x1 = fun j => ∑ k : Fin 128, x0 (ix2 (j 0) k) * x1 (ix2 k (j 1)) := by
  funext j
  obtain ⟨p, q, rfl⟩ : ∃ (p : Fin 2000) (q : Fin 64), j = ix2 p q := ⟨j 0, j 1, eq_ix2 j⟩
  exact pay_apply x0 x1 p q

/-- Where the printed index maps send a grid point: the row-blocked windows to block row t, column block 0; the
    weights to their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of the two arrays as the region finds them. -/
abbrev G (c : Dev nD) : Vec Ideal S100000x64 .f32 :=
  Cert.Spec.prod (M := 100000) (K := 128) (N := 64) (V c main_v43) (V c main_arg4)

/-- The blocks and arrays at their literal types. -/
abbrev xblk (c : Dev nD) (t : Fin cfg2.N) : Vec Ideal S2000x128 .f32 := iblk2 V c 0 t
abbrev wblk (c : Dev nD) (t : Fin cfg2.N) : Vec Ideal S128x64 .f32 := iblk2 V c 1 t
abbrev xarr (c : Dev nD) : Vec Ideal S100000x128 .f32 := V c main_v43
abbrev warr (c : Dev nD) : Vec Ideal S128x64 .f32 := V c main_arg4

/-- What point t writes back is block t of the product. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  funext j
  show k2_pay1 (iblk2 V c 0 t) (iblk2 V c 1 t) j = G V c (((cfg2.win 2).blk t).view.emb j)
  refine (congrFun (pay_eq (iblk2 V c 0 t) (iblk2 V c 1 t)) j).trans ?_
  obtain ⟨e00, e01, e10, e11, e20, e21⟩ := idx_facts t
  show ∑ k : Fin 128, xblk V c t (ix2 (j 0) k) * wblk V c t (ix2 k (j 1))
    = ∑ k : Fin 128, xarr V c (ix2 ((((cfg2.win 2).blk t).view.emb j) 0) k) * warr V c (ix2 k ((((cfg2.win 2).blk t).view.emb j) 1))
  refine Finset.sum_congr rfl fun k _ => ?_
  have hx : xblk V c t (ix2 (j 0) k) = xarr V c (ix2 ((((cfg2.win 2).blk t).view.emb j) 0) k) := by
    show V c main_v43 (((cfg2.win 0).blk t).view.emb (ix2 (j 0) k)) = _
    refine congrArg (V c main_v43) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have hw : wblk V c t (ix2 k (j 1)) = warr V c (ix2 k ((((cfg2.win 2).blk t).view.emb j) 1)) := by
    show V c main_arg4 (((cfg2.win 1).blk t).view.emb (ix2 k (j 1))) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [hx, hw]

/-- An index of the result array lies in point t's block when its row lies in the block's 2000 rows. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v44).slice (win2_2.rect t)).set ↔ _
  rw [View.set_slice_whole, Rect.mem_set_unit]
  exact Iff.rfl

/-- Every index of the result array lies in the block of the point its row block names. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 2000, by show (i 0).val / 2000 < 50; omega⟩, flush2_2 _, ?_⟩
  rw [mem_blk]
  obtain ⟨e00, e01, e10, e11, e20, e21⟩ := idx_facts ⟨(i 0).val / 2000, by show (i 0).val / 2000 < 50; omega⟩
  intro a
  match a with
  | ⟨0, _⟩ => show win2_2.index _ (0 : Fin 2) * 2000 ≤ (i 0).val ∧ (i 0).val < win2_2.index _ (0 : Fin 2) * 2000 + 2000; rw [e20]; show (i 0).val / 2000 * 2000 ≤ (i 0).val ∧ (i 0).val < (i 0).val / 2000 * 2000 + 2000; omega
  | ⟨1, _⟩ => show win2_2.index _ (1 : Fin 2) * 64 ≤ (i 1).val ∧ (i 1).val < win2_2.index _ (1 : Fin 2) * 64 + 64; rw [e21]; omega

/-- After the region the result array is the product of the arrays it found. -/
theorem final (c : Dev nD) : (dat2 V c).arrAt 2 cfg2.N = G V c :=
  (dat2 V c).arrAt_eq_of_cover 2 (G V c) (fun t _ => flushed_eq V c t) cover

end Cert.KernelIdeal.Dense2

end
-- ==== Proof.KComb1.lean ====
/-
  Region 1: a layer's closing step, block of 2000 rows by block.

  Grid point t loads rows 2000·t … 2000·t + 1999 of the neighbour sums and of the node rows (all 128 columns), the
  same rows of the one-column array of self weights, and the whole one-row bias, and stores
  max ((agg + h · s) + b) 0 as rows 2000·t … 2000·t + 1999 of the result: the self weight of a row is spread along its
  columns, the bias of a column down its rows. The fifty row blocks tile the 100000 rows, so after the region the
  result array is the closing step of the four arrays, entry by entry.
-/
import proofs.«139974_j17901423690367_1_alg».proof.Proof.Gen.KernelIdeal.Frame
import proofs.«139974_j17901423690367_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored block at (p, q): a cast to the same shape is the identity, the self weights are read at column 0 of
    their row and the bias at row 0 of its column; sum, product and maximum are those of the extended reals, and the
    zero stays the pattern it is printed as. -/
theorem pay_apply (x0 x1 : Vec Ideal S2000x128 .f32) (x2 : Vec Ideal S2000x1 .f32) (x3 : Vec Ideal S1x128 .f32)
    (p : Fin 2000) (q : Fin 128) :
    k1_pay1 x0 x1 x2 x3 (ix2 p q)
      = max ((x0 (ix2 p q) + x1 (ix2 p q) * x2 (ix2 p 0)) + x3 (ix2 0 q)) (Ideal.ofBits .f32 0x00000000#32) := by
  unfold k1_pay1
  simp only [shapeCast_self]
  show max ((x0 (ix2 p q) + x1 (ix2 p q) * broadcastTo S2000x128 x2 broadcasts_S2000x1_S2000x128 (ix2 p q))
      + broadcastTo S2000x128 x3 broadcasts_S1x128_S2000x128 (ix2 p q)) (Ideal.ofBits .f32 0x00000000#32) = _
  rw [broadcastTo_apply x2 broadcasts_S2000x1_S2000x128 (ix2 p q) (ix2 p 0)
        (fun a => match a with | ⟨0, _⟩ => rfl | ⟨1, _⟩ => rfl),
      broadcastTo_apply x3 broadcasts_S1x128_S2000x128 (ix2 p q) (ix2 0 q)
        (fun a => match a with | ⟨0, _⟩ => rfl | ⟨1, _⟩ => rfl)]

theorem pay_eq (x0 x1 : Vec Ideal S2000x128 .f32) (x2 : Vec Ideal S2000x1 .f32) (x3 : Vec Ideal S1x128 .f32) :
    k1_pay1 x0 x1 x2 x3
      = fun j => max ((x0 j + x1 j * x2 (ix2 (j 0) 0)) + x3 (ix2 0 (j 1))) (Ideal.ofBits .f32 0x00000000#32) := by
  funext j
  obtain ⟨p, q, rfl⟩ : ∃ (p : Fin 2000) (q : Fin 128), j = ix2 p q := ⟨j 0, j 1, eq_ix2 j⟩
  exact pay_apply x0 x1 x2 x3 p q

/-- Where the printed index maps send a grid point: the row-blocked windows to block row t, column block 0; the
    bias to its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The arrays the region finds, at their literal types. -/
abbrev aggarr (c : Dev nD) : Vec Ideal S100000x128 .f32 := V c main_v40
abbrev harr (c : Dev nD) : Vec Ideal S100000x128 .f32 := V c main_v27
abbrev sarr (c : Dev nD) : Vec Ideal S100000x1 .f32 := V c main_v41
abbrev barr (c : Dev nD) : Vec Ideal S1x128 .f32 := V c main_v42

/-- The closing step of the arrays as the region finds them: the self weights read down their one column, the bias
    along its one row. -/
abbrev G (c : Dev nD) : Vec Ideal S100000x128 .f32 :=
  Cert.Spec.combine (M := 100000) (N := 128) (aggarr V c) (harr V c) (fun r => sarr V c (ix2 (r 0) 0)) (fun q => barr V c (ix2 0 (q 0)))

/-- The blocks at their literal types. -/
abbrev ablk (c : Dev nD) (t : Fin cfg1.N) : Vec Ideal S2000x128 .f32 := iblk1 V c 0 t
abbrev hblk (c : Dev nD) (t : Fin cfg1.N) : Vec Ideal S2000x128 .f32 := iblk1 V c 1 t
abbrev sblk (c : Dev nD) (t : Fin cfg1.N) : Vec Ideal S2000x1 .f32 := iblk1 V c 2 t
abbrev bblk (c : Dev nD) (t : Fin cfg1.N) : Vec Ideal S1x128 .f32 := iblk1 V c 3 t

/-- What point t writes back is block t of the closing step: each of the four block reads is the array read at the
    block's place, row 2000·t + p for the row-blocked windows, the one row of the bias. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  funext j
  show k1_pay1 (iblk1 V c 0 t) (iblk1 V c 1 t) (iblk1 V c 2 t) (iblk1 V c 3 t) j = G V c (((cfg1.win 4).blk t).view.emb j)
  refine (congrFun (pay_eq (iblk1 V c 0 t) (iblk1 V c 1 t) (iblk1 V c 2 t) (iblk1 V c 3 t)) j).trans ?_
  obtain ⟨e00, e01, e10, e11, e20, e21, e30, e31, e40, e41⟩ := idx_facts t
  show max ((ablk V c t j + hblk V c t j * sblk V c t (ix2 (j 0) 0)) + bblk V c t (ix2 0 (j 1))) (Ideal.ofBits .f32 0x00000000#32)
    = max ((aggarr V c (((cfg1.win 4).blk t).view.emb j) + harr V c (((cfg1.win 4).blk t).view.emb j)
        * sarr V c (ix2 ((((cfg1.win 4).blk t).view.emb j) 0) 0)) + barr V c (ix2 0 ((((cfg1.win 4).blk t).view.emb j) 1)))
      (Ideal.ofBits .f32 0x00000000#32)
  have ha : ablk V c t j = aggarr V c (((cfg1.win 4).blk t).view.emb j) := by
    show V c main_v40 (((cfg1.win 0).blk t).view.emb j) = _
    refine congrArg (V c main_v40) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  have hh : hblk V c t j = harr V c (((cfg1.win 4).blk t).view.emb j) := by
    show V c main_v27 (((cfg1.win 1).blk t).view.emb j) = _
    refine congrArg (V c main_v27) (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  have hs : sblk V c t (ix2 (j 0) 0) = sarr V c (ix2 ((((cfg1.win 4).blk t).view.emb j) 0) 0) := by
    show V c main_v41 (((cfg1.win 2).blk t).view.emb (ix2 (j 0) 0)) = _
    refine congrArg (V c main_v41) (funext fun a => Fin.ext ?_)
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  have hb : bblk V c t (ix2 0 (j 1)) = barr V c (ix2 0 ((((cfg1.win 4).blk t).view.emb j) 1)) := by
    show V c main_v42 (((cfg1.win 3).blk t).view.emb (ix2 0 (j 1))) = _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [ha, hh, hs, hb]

/-- An index of the result array lies in point t's block when its row lies in the block's 2000 rows. -/
theorem mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v43).slice (win1_4.rect t)).set ↔ _
  rw [View.set_slice_whole, Rect.mem_set_unit]
  exact Iff.rfl

/-- Every index of the result array lies in the block of the point its row block names. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  refine ⟨⟨(i 0).val / 2000, by show (i 0).val / 2000 < 50; omega⟩, flush1_4 _, ?_⟩
  rw [mem_blk]
  obtain ⟨e00, e01, e10, e11, e20, e21, e30, e31, e40, e41⟩ := idx_facts ⟨(i 0).val / 2000, by show (i 0).val / 2000 < 50; omega⟩
  intro a
  match a with
  | ⟨0, _⟩ => show win1_4.index _ (0 : Fin 2) * 2000 ≤ (i 0).val ∧ (i 0).val < win1_4.index _ (0 : Fin 2) * 2000 + 2000; rw [e40]; show (i 0).val / 2000 * 2000 ≤ (i 0).val ∧ (i 0).val < (i 0).val / 2000 * 2000 + 2000; omega
  | ⟨1, _⟩ => show win1_4.index _ (1 : Fin 2) * 128 ≤ (i 1).val ∧ (i 1).val < win1_4.index _ (1 : Fin 2) * 128 + 128; rw [e41]; omega

/-- After the region the result array is the closing step of the arrays it found. -/
theorem final (c : Dev nD) : (dat1 V c).arrAt 4 cfg1.N = G V c :=
  (dat1 V c).arrAt_eq_of_cover 4 (G V c) (fun t _ => flushed_eq V c t) cover

end Cert.KernelIdeal.Comb1

end
-- ==== Proof.KComb3.lean ====
/-
  Region 3: a layer's closing step, block of 2000 rows by block, on arrays 64 columns wide.

  Grid point t loads rows 2000·t … 2000·t + 1999 of the neighbour sums and of the node rows (all 64 columns), the
  same rows of the one-column array of self weights, and the whole one-row bias, and stores
  max ((agg + h · s) + b) 0 as rows 2000·t … 2000·t + 1999 of the result: the self weight of a row is spread along its
  columns, the bias of a column down its rows. The fifty row blocks tile the 100000 rows, so after the region the
  result array is the closing step of the four arrays, entry by entry.
-/
import proofs.«139974_j17901423690367_1_alg».proof.Proof.Gen.KernelIdeal.Frame
import proofs.«139974_j17901423690367_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored block at (p, q): a cast to the same shape is the identity, the self weights are read at column 0 of
    their row and the bias at row 0 of its column; sum, product and maximum are those of the extended reals, and the
    zero stays the pattern it is printed as. -/
theorem pay_apply (x0 x1 : Vec Ideal S2000x64 .f32) (x2 : Vec Ideal S2000x1 .f32) (x3 : Vec Ideal S1x64 .f32)
    (p : Fin 2000) (q : Fin 64) :
    k3_pay1 x0 x1 x2 x3 (ix2 p q)
      = max ((x0 (ix2 p q) + x1 (ix2 p q) * x2 (ix2 p 0)) + x3 (ix2 0 q)) (Ideal.ofBits .f32 0x00000000#32) := by
  unfold k3_pay1
  simp only [shapeCast_self]
  show max ((x0 (ix2 p q) + x1 (ix2 p q) * broadcastTo S2000x64 x2 broadcasts_S2000x1_S2000x64 (ix2 p q))
      + broadcastTo S2000x64 x3 broadcasts_S1x64_S2000x64 (ix2 p q)) (Ideal.ofBits .f32 0x00000000#32) = _
  rw [broadcastTo_apply x2 broadcasts_S2000x1_S2000x64 (ix2 p q) (ix2 p 0)
        (fun a => match a with | ⟨0, _⟩ => rfl | ⟨1, _⟩ => rfl),
      broadcastTo_apply x3 broadcasts_S1x64_S2000x64 (ix2 p q) (ix2 0 q)
        (fun a => match a with | ⟨0, _⟩ => rfl | ⟨1, _⟩ => rfl)]

theorem pay_eq (x0 x1 : Vec Ideal S2000x64 .f32) (x2 : Vec Ideal S2000x1 .f32) (x3 : Vec Ideal S1x64 .f32) :
    k3_pay1 x0 x1 x2 x3
      = fun j => max ((x0 j + x1 j * x2 (ix2 (j 0) 0)) + x3 (ix2 0 (j 1))) (Ideal.ofBits .f32 0x00000000#32) := by
  funext j
  obtain ⟨p, q, rfl⟩ : ∃ (p : Fin 2000) (q : Fin 64), j = ix2 p q := ⟨j 0, j 1, eq_ix2 j⟩
  exact pay_apply x0 x1 x2 x3 p q

/-- Where the printed index maps send a grid point: the row-blocked windows to block row t, column block 0; the
    bias to its one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The arrays the region finds, at their literal types. -/
abbrev aggarr (c : Dev nD) : Vec Ideal S100000x64 .f32 := V c main_v57
abbrev harr (c : Dev nD) : Vec Ideal S100000x64 .f32 := V c main_v44
abbrev sarr (c : Dev nD) : Vec Ideal S100000x1 .f32 := V c main_v58
abbrev barr (c : Dev nD) : Vec Ideal S1x64 .f32 := V c main_v59

/-- The closing step of the arrays as the region finds them: the self weights read down their one column, the bias
    along its one row. -/
abbrev G (c : Dev nD) : Vec Ideal S100000x64 .f32 :=
  Cert.Spec.combine (M := 100000) (N := 64) (aggarr V c) (harr V c) (fun r => sarr V c (ix2 (r 0) 0)) (fun q => barr V c (ix2 0 (q 0)))

/-- The blocks at their literal types. -/
abbrev ablk (c : Dev nD) (t : Fin cfg3.N) : Vec Ideal S2000x64 .f32 := iblk3 V c 0 t
abbrev hblk (c : Dev nD) (t : Fin cfg3.N) : Vec Ideal S2000x64 .f32 := iblk3 V c 1 t
abbrev sblk (c : Dev nD) (t : Fin cfg3.N) : Vec Ideal S2000x1 .f32 := iblk3 V c 2 t
abbrev bblk (c : Dev nD) (t : Fin cfg3.N) : Vec Ideal S1x64 .f32 := iblk3 V c 3 t

/-- What point t writes back is block t of the closing step: each of the four block reads is the array read at the
    block's place, row 2000·t + p for the row-blocked windows, the one row of the bias. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  funext j
  show k3_pay1 (iblk3 V c 0 t) (iblk3 V c 1 t) (iblk3 V c 2 t) (iblk3 V c 3 t) j = G V c (((cfg3.win 4).blk t).view.emb j)
  refine (congrFun (pay_eq (iblk3 V c 0 t) (iblk3 V c 1 t) (iblk3 V c 2 t) (iblk3 V c 3 t)) j).trans ?_
  obtain ⟨e00, e01, e10, e11, e20, e21, e30, e31, e40, e41⟩ := idx_facts t
  show max ((ablk V c t j + hblk V c t j * sblk V c t (ix2 (j 0) 0)) + bblk V c t (ix2 0 (j 1))) (Ideal.ofBits .f32 0x00000000#32)
    = max ((aggarr V c (((cfg3.win 4).blk t).view.emb j) + harr V c (((cfg3.win 4).blk t).view.emb j)
        * sarr V c (ix2 ((((cfg3.win 4).blk t).view.emb j) 0) 0)) + barr V c (ix2 0 ((((cfg3.win 4).blk t).view.emb j) 1)))
      (Ideal.ofBits .f32 0x00000000#32)
  have ha : ablk V c t j = aggarr V c (((cfg3.win 4).blk t).view.emb j) := by
    show V c main_v57 (((cfg3.win 0).blk t).view.emb j) = _
    refine congrArg (V c main_v57) (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 64 + 1 * (j 1).val = win3_4.index t (1 : Fin 2) * 64 + 1 * (j 1).val; omega
  have hh : hblk V c t j = harr V c (((cfg3.win 4).blk t).view.emb j) := by
    show V c main_v44 (((cfg3.win 1).blk t).view.emb j) = _
    refine congrArg (V c main_v44) (funext fun a => Fin.ext ?_)
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 64 + 1 * (j 1).val = win3_4.index t (1 : Fin 2) * 64 + 1 * (j 1).val; omega
  have hs : sblk V c t (ix2 (j 0) 0) = sarr V c (ix2 ((((cfg3.win 4).blk t).view.emb j) 0) 0) := by
    show V c main_v58 (((cfg3.win 2).blk t).view.emb (ix2 (j 0) 0)) = _
    refine congrArg (V c main_v58) (funext fun a => Fin.ext ?_)
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 1 + 1 * 0 = 0; omega
  have hb : bblk V c t (ix2 0 (j 1)) = barr V c (ix2 0 ((((cfg3.win 4).blk t).view.emb j) 1)) := by
    show V c main_v59 (((cfg3.win 3).blk t).view.emb (ix2 0 (j 1))) = _
    refine congrArg (V c main_v59) (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  rw [ha, hh, hs, hb]

/-- An index of the result array lies in point t's block when its row lies in the block's 2000 rows. -/
theorem mem_blk (t : Fin cfg3.N) (i : S100000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v60).slice (win3_4.rect t)).set ↔ _
  rw [View.set_slice_whole, Rect.mem_set_unit]
  exact Iff.rfl

/-- Every index of the result array lies in the block of the point its row block names. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  refine ⟨⟨(i 0).val / 2000, by show (i 0).val / 2000 < 50; omega⟩, flush3_4 _, ?_⟩
  rw [mem_blk]
  obtain ⟨e00, e01, e10, e11, e20, e21, e30, e31, e40, e41⟩ := idx_facts ⟨(i 0).val / 2000, by show (i 0).val / 2000 < 50; omega⟩
  intro a
  match a with
  | ⟨0, _⟩ => show win3_4.index _ (0 : Fin 2) * 2000 ≤ (i 0).val ∧ (i 0).val < win3_4.index _ (0 : Fin 2) * 2000 + 2000; rw [e40]; show (i 0).val / 2000 * 2000 ≤ (i 0).val ∧ (i 0).val < (i 0).val / 2000 * 2000 + 2000; omega
  | ⟨1, _⟩ => show win3_4.index _ (1 : Fin 2) * 64 ≤ (i 1).val ∧ (i 1).val < win3_4.index _ (1 : Fin 2) * 64 + 64; rw [e41]; omega

/-- After the region the result array is the closing step of the arrays it found. -/
theorem final (c : Dev nD) : (dat3 V c).arrAt 4 cfg3.N = G V c :=
  (dat3 V c).arrAt_eq_of_cover 4 (G V c) (fun t _ => flushed_eq V c t) cover

end Cert.KernelIdeal.Comb3

end
-- ==== Proof.RefSpec.lean ====
/-
  The reference, stage by stage, in the two whole-array functions of the specification: its two dense products are
  `prod`, its two closing steps `combine` of the stages before them; and the second layer's edge weights and self
  weights, computed again from the same edges, are the first layer's.

  A dense product with plain dimension numbers, read at (p, q), is the sum over k of left (p, k) · right (k, q), which
  is `prod` at (p, q). A closing step, read at (p, q), is max ((agg (p, q) + h (p, q) · s') + b') 0 where s' is the
  self-weight vector broadcast along the columns and b' the bias broadcast along the rows; read at (p, q) these are
  s p and b q, and the floor is the zero pattern everywhere, which is `combine` at (p, q). The neighbour sum and the
  self weights stay the unopened stage functions. The second layer's degree normalisation applies the same operations
  to the same edge array, so its stages are the first layer's, term for term.
-/
import proofs.«139974_j17901423690367_1_alg».proof.Proof.Gen.ReferenceIdeal.Read
import proofs.«139974_j17901423690367_1_alg».proof.Proof.LibDense
import proofs.«139974_j17901423690367_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefSpec

open Cert.ReferenceIdeal Cert.ReferenceIdeal.Gen Cert.ReferenceIdeal.Read Idealize.ShloMosaic Idealize.ShloMosaic.TcCoe Idealize.ShloMosaic.ValueIdx Idealize.SL.Sem

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first layer's self weight, broadcast along the columns, read at (p, q), is the self weight of row p. -/
theorem self1_at (p : Fin 100000) (q : Fin 128) :
    val_main_v42 (F := Ideal) x1 (ix2 p q) = val_main_v40 (F := Ideal) x1 (ix1 p) := by
  refine (val_main_v42_apply (F := Ideal) x1 (ix2 p q)).trans ?_
  refine (val_main_v41_apply (F := Ideal) x1 (idx_main_v42 (ix2 p q))).trans ?_
  exact congrArg (val_main_v40 (F := Ideal) x1) (funext fun a => match a with | ⟨0, _⟩ => rfl)

/-- The first layer's bias, broadcast along the rows, read at (p, q), is the bias of column q. -/
theorem bias1_at (p : Fin 100000) (q : Fin 128) :
    val_main_v46 (F := Ideal) x3 (ix2 p q) = x3 (ix1 q) := by
  refine (val_main_v46_apply (F := Ideal) x3 (ix2 p q)).trans ?_
  refine (val_main_v45_apply (F := Ideal) x3 (idx_main_v46 (ix2 p q))).trans ?_
  exact congrArg x3 (funext fun a => match a with | ⟨0, _⟩ => rfl)

/-- The first layer's clipping floor, read anywhere, is the zero pattern. -/
theorem floor1_at (p : Fin 100000) (q : Fin 128) :
    val_main_call0_v0 (F := Ideal) (ix2 p q) = Ideal.ofBits .f32 0x00000000#32 := by
  refine (val_main_call0_v0_apply (F := Ideal) (ix2 p q)).trans ?_
  rfl

/-- The second layer's self weight, broadcast along the columns, read at (p, q), is the self weight of row p. -/
theorem self2_at (p : Fin 100000) (q : Fin 64) :
    val_main_v87 (F := Ideal) x1 (ix2 p q) = val_main_v85 (F := Ideal) x1 (ix1 p) := by
  refine (val_main_v87_apply (F := Ideal) x1 (ix2 p q)).trans ?_
  refine (val_main_v86_apply (F := Ideal) x1 (idx_main_v87 (ix2 p q))).trans ?_
  exact congrArg (val_main_v85 (F := Ideal) x1) (funext fun a => match a with | ⟨0, _⟩ => rfl)

/-- The second layer's bias, broadcast along the rows, read at (p, q), is the bias of column q. -/
theorem bias2_at (p : Fin 100000) (q : Fin 64) :
    val_main_v91 (F := Ideal) x5 (ix2 p q) = x5 (ix1 q) := by
  refine (val_main_v91_apply (F := Ideal) x5 (ix2 p q)).trans ?_
  refine (val_main_v90_apply (F := Ideal) x5 (idx_main_v91 (ix2 p q))).trans ?_
  exact congrArg x5 (funext fun a => match a with | ⟨0, _⟩ => rfl)

/-- The second layer's clipping floor, read anywhere, is the zero pattern. -/
theorem floor2_at (p : Fin 100000) (q : Fin 64) :
    val_main_call1_v0 (F := Ideal) (ix2 p q) = Ideal.ofBits .f32 0x00000000#32 := by
  refine (val_main_call1_v0_apply (F := Ideal) (ix2 p q)).trans ?_
  rfl

/-- The first layer's dense product. -/
theorem h1_eq : val_main_v4 (F := Ideal) x0 x2 = Cert.Spec.prod (M := 100000) (K := 256) (N := 128) x0 x2 := by
  funext j
  obtain ⟨p, q, rfl⟩ : ∃ (p : Fin 100000) (q : Fin 128), j = ix2 p q := ⟨j 0, j 1, eq_ix2 j⟩
  unfold val_main_v4
  exact Cert.LibDense.dotGeneral_apply (M := 100000) (K := 256) (N := 128)
    dot_S100000x256_S256x128_S100000x128_1_0_0_1_n_n none _ rfl rfl rfl rfl rfl rfl x0 x2 p q

/-- The first layer's output: the closing step of its neighbour sum, its dense product, the self weights and the bias. -/
theorem out1_eq : val_main_v48 (F := Ideal) x0 x1 x2 x3
    = Cert.Spec.combine (M := 100000) (N := 128) (val_main_v39 (F := Ideal) x0 x1 x2) (val_main_v4 (F := Ideal) x0 x2) (val_main_v40 (F := Ideal) x1) x3 := by
  funext j
  obtain ⟨p, q, rfl⟩ : ∃ (p : Fin 100000) (q : Fin 128), j = ix2 p q := ⟨j 0, j 1, eq_ix2 j⟩
  refine (val_main_v48_apply (F := Ideal) x0 x1 x2 x3 (ix2 p q)).trans ?_
  rw [val_main_v47_apply, val_main_v44_apply, val_main_v43_apply, self1_at, bias1_at, floor1_at]
  rfl

/-- The second layer's dense product. -/
theorem h2_eq : val_main_v49 (F := Ideal) x0 x1 x2 x3 x4
    = Cert.Spec.prod (M := 100000) (K := 128) (N := 64) (val_main_v48 (F := Ideal) x0 x1 x2 x3) x4 := by
  funext j
  obtain ⟨p, q, rfl⟩ : ∃ (p : Fin 100000) (q : Fin 64), j = ix2 p q := ⟨j 0, j 1, eq_ix2 j⟩
  unfold val_main_v49
  exact Cert.LibDense.dotGeneral_apply (M := 100000) (K := 128) (N := 64)
    dot_S100000x128_S128x64_S100000x64_1_0_0_1_n_n none _ rfl rfl rfl rfl rfl rfl (val_main_v48 (F := Ideal) x0 x1 x2 x3) x4 p q

/-- The second layer's output. -/
theorem out2_eq : val_main_v93 (F := Ideal) x0 x1 x2 x3 x4 x5
    = Cert.Spec.combine (M := 100000) (N := 64) (val_main_v84 (F := Ideal) x0 x1 x2 x3 x4) (val_main_v49 (F := Ideal) x0 x1 x2 x3 x4) (val_main_v85 (F := Ideal) x1) x5 := by
  funext j
  obtain ⟨p, q, rfl⟩ : ∃ (p : Fin 100000) (q : Fin 64), j = ix2 p q := ⟨j 0, j 1, eq_ix2 j⟩
  refine (val_main_v93_apply (F := Ideal) x0 x1 x2 x3 x4 x5 (ix2 p q)).trans ?_
  rw [val_main_v92_apply, val_main_v89_apply, val_main_v88_apply, self2_at, bias2_at, floor2_at]
  rfl

/-- The edge weights the second layer computes again are the first layer's. -/
theorem coef_again : val_main_v71 (F := Ideal) x1 = val_main_v26 (F := Ideal) x1 := by
  rfl

/-- The self weights the second layer computes again are the first layer's. -/
theorem self_again : val_main_v85 (F := Ideal) x1 = val_main_v40 (F := Ideal) x1 := by
  rfl

end Cert.ReferenceIdeal.RefSpec

end
-- ==== Proof.KValue.lean ====
/-
  The kernel program's result array as the reference's staged value of the same argument arrays.
-/
import proofs.«139974_j17901423690367_1_alg».proof.Proof.Gen.KernelIdeal.Frame
import proofs.«139974_j17901423690367_1_alg».proof.Proof.Gen.ReferenceIdeal.Read
import proofs.«139974_j17901423690367_1_alg».proof.Proof.KDense0
import proofs.«139974_j17901423690367_1_alg».proof.Proof.KDense2
import proofs.«139974_j17901423690367_1_alg».proof.Proof.KComb1
import proofs.«139974_j17901423690367_1_alg».proof.Proof.KComb3
import proofs.«139974_j17901423690367_1_alg».proof.Proof.RefSpec
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

namespace R
export Cert.ReferenceIdeal.Read (val_main_v1 val_main_v3 val_main_v4 val_main_v26 val_main_v39 val_main_v40 val_main_v48 val_main_v49 val_main_v71 val_main_v84 val_main_v85 val_main_v93)
end R

/-- The argument arrays as launched. -/
abbrev a0 (c : Dev nD) : Vec Ideal S100000x256 .f32 := m ((c : Thread nD τ).loc main_arg0)
abbrev a1 (c : Dev nD) : Vec Ideal S2x1600000 .i32 := m ((c : Thread nD τ).loc main_arg1)
abbrev a2 (c : Dev nD) : Vec Ideal S256x128 .f32 := m ((c : Thread nD τ).loc main_arg2)
abbrev a3 (c : Dev nD) : Vec Ideal S128 .f32 := m ((c : Thread nD τ).loc main_arg3)
abbrev a4 (c : Dev nD) : Vec Ideal S128x64 .f32 := m ((c : Thread nD τ).loc main_arg4)
abbrev a5 (c : Dev nD) : Vec Ideal S64 .f32 := m ((c : Thread nD τ).loc main_arg5)

/-! ## Before the first region: the edge arrays, the edge weights and the self weights -/

theorem W1_v1 (c : Dev nD) : W1 m ρ c (Proc.devRef .tc main_v1) = R.val_main_v1 (F := Ideal) (a1 m c) := by
  show StableHlo.after hostOps0 (W0 m ρ c) (Proc.devRef .tc main_v1) = _
  after_results_simp
  rfl

theorem W1_v3 (c : Dev nD) : W1 m ρ c (Proc.devRef .tc main_v3) = R.val_main_v3 (F := Ideal) (a1 m c) := by
  show StableHlo.after hostOps0 (W0 m ρ c) (Proc.devRef .tc main_v3) = _
  after_results_simp
  rfl

theorem W1_v25 (c : Dev nD) : W1 m ρ c (Proc.devRef .tc main_v25) = R.val_main_v26 (F := Ideal) (a1 m c) := by
  show StableHlo.after hostOps0 (W0 m ρ c) (Proc.devRef .tc main_v25) = _
  after_results_simp
  rfl

theorem W1_v26 (c : Dev nD) : W1 m ρ c (Proc.devRef .tc main_v26) = R.val_main_v40 (F := Ideal) (a1 m c) := by
  show StableHlo.after hostOps0 (W0 m ρ c) (Proc.devRef .tc main_v26) = _
  after_results_simp
  rfl

theorem W1_arg0 (c : Dev nD) : W1 m ρ c (Proc.devRef .tc main_arg0) = a0 m c := by
  show StableHlo.after hostOps0 (W0 m ρ c) (Proc.devRef .tc main_arg0) = _
  after_results_simp
theorem W1_arg2 (c : Dev nD) : W1 m ρ c (Proc.devRef .tc main_arg2) = a2 m c := by
  show StableHlo.after hostOps0 (W0 m ρ c) (Proc.devRef .tc main_arg2) = _
  after_results_simp
theorem W1_arg3 (c : Dev nD) : W1 m ρ c (Proc.devRef .tc main_arg3) = a3 m c := by
  show StableHlo.after hostOps0 (W0 m ρ c) (Proc.devRef .tc main_arg3) = _
  after_results_simp
theorem W1_arg4 (c : Dev nD) : W1 m ρ c (Proc.devRef .tc main_arg4) = a4 m c := by
  show StableHlo.after hostOps0 (W0 m ρ c) (Proc.devRef .tc main_arg4) = _
  after_results_simp
theorem W1_arg5 (c : Dev nD) : W1 m ρ c (Proc.devRef .tc main_arg5) = a5 m c := by
  show StableHlo.after hostOps0 (W0 m ρ c) (Proc.devRef .tc main_arg5) = _
  after_results_simp

/-! ## The first region and what it leaves alone -/

theorem W2_v1 (c : Dev nD) : W2 m ρ c (Proc.devRef .tc main_v1) = R.val_main_v1 (F := Ideal) (a1 m c) :=
  (W2_of_ne m ρ c main_v1 (by decide)).trans (W1_v1 m ρ c)
theorem W2_v3 (c : Dev nD) : W2 m ρ c (Proc.devRef .tc main_v3) = R.val_main_v3 (F := Ideal) (a1 m c) :=
  (W2_of_ne m ρ c main_v3 (by decide)).trans (W1_v3 m ρ c)
theorem W2_v25 (c : Dev nD) : W2 m ρ c (Proc.devRef .tc main_v25) = R.val_main_v26 (F := Ideal) (a1 m c) :=
  (W2_of_ne m ρ c main_v25 (by decide)).trans (W1_v25 m ρ c)
theorem W2_v26 (c : Dev nD) : W2 m ρ c (Proc.devRef .tc main_v26) = R.val_main_v40 (F := Ideal) (a1 m c) :=
  (W2_of_ne m ρ c main_v26 (by decide)).trans (W1_v26 m ρ c)
theorem W2_arg3 (c : Dev nD) : W2 m ρ c (Proc.devRef .tc main_arg3) = a3 m c :=
  (W2_of_ne m ρ c main_arg3 (by decide)).trans (W1_arg3 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)

/-- The first dense product is the reference's. -/
theorem W2_v27 (c : Dev nD) : W2 m ρ c (Proc.devRef .tc main_v27) = R.val_main_v4 (F := Ideal) (a0 m c) (a2 m c) := by
  refine (W2_arr m ρ c 2).trans ((Dense0.final (V1 m ρ) c).trans ?_)
  show Cert.Spec.prod (M := 100000) (K := 256) (N := 128) (W1 m ρ c (Proc.devRef .tc main_arg0)) (W1 m ρ c (Proc.devRef .tc main_arg2)) = _
  rw [W1_arg0, W1_arg2]
  exact (Cert.ReferenceIdeal.RefSpec.h1_eq _ _).symm

/-! ## Between the first two regions: the first layer's neighbour sum -/

/-- The first layer's neighbour sum is the reference's: the same gather, scaling and scatter-add of the same product. -/
theorem W3_v40 (c : Dev nD) : W3 m ρ c (Proc.devRef .tc main_v40) = R.val_main_v39 (F := Ideal) (a0 m c) (a1 m c) (a2 m c) := by
  show StableHlo.after hostOps1 (W2 m ρ c) (Proc.devRef .tc main_v40) = _
  after_results_simp
  rw [W2_v1, W2_v3, W2_v25, W2_v27]
  rfl

theorem W3_v27 (c : Dev nD) : W3 m ρ c (Proc.devRef .tc main_v27) = R.val_main_v4 (F := Ideal) (a0 m c) (a2 m c) := by
  show StableHlo.after hostOps1 (W2 m ρ c) (Proc.devRef .tc main_v27) = _
  after_results_simp
  exact W2_v27 m ρ c

theorem W3_v41 (c : Dev nD) : W3 m ρ c (Proc.devRef .tc main_v41) = shapeCast S100000x1 (R.val_main_v40 (F := Ideal) (a1 m c)) shapeCasts_S100000_S100000x1 := by
  show StableHlo.after hostOps1 (W2 m ρ c) (Proc.devRef .tc main_v41) = _
  after_results_simp
  rw [W2_v26]
  rfl

theorem W3_v42 (c : Dev nD) : W3 m ρ c (Proc.devRef .tc main_v42) = shapeCast S1x128 (a3 m c) shapeCasts_S128_S1x128 := by
  show StableHlo.after hostOps1 (W2 m ρ c) (Proc.devRef .tc main_v42) = _
  after_results_simp
  rw [W2_arg3]
  rfl

/-! ## The second region: the first layer's output -/

/-- The self weights reshaped to one column, read down that column, are the self weights. -/
theorem col_read (s : Vec Ideal S100000 .f32) :
    (fun r : S100000.Idx => shapeCast S100000x1 s shapeCasts_S100000_S100000x1 (ix2 (r 0) 0)) = s := by
  funext r
  refine (shapeCast_apply s shapeCasts_S100000_S100000x1 (ix2 (r 0) 0) r ?_).trans rfl
  rw [Shape.rowMajor_val_one, Shape.rowMajor_val_two]
  show (r 0).val = (r 0).val * 1 + 0
  omega

/-- The bias reshaped to one row, read along that row, is the bias. -/
theorem row_read128 (b : Vec Ideal S128 .f32) :
    (fun q : S128.Idx => shapeCast S1x128 b shapeCasts_S128_S1x128 (ix2 0 (q 0))) = b := by
  funext q
  refine (shapeCast_apply b shapeCasts_S128_S1x128 (ix2 0 (q 0)) q ?_).trans rfl
  rw [Shape.rowMajor_val_one, Shape.rowMajor_val_two]
  show (q 0).val = 0 * 128 + (q 0).val
  omega

theorem row_read64 (b : Vec Ideal S64 .f32) :
    (fun q : S64.Idx => shapeCast S1x64 b shapeCasts_S64_S1x64 (ix2 0 (q 0))) = b := by
  funext q
  refine (shapeCast_apply b shapeCasts_S64_S1x64 (ix2 0 (q 0)) q ?_).trans rfl
  rw [Shape.rowMajor_val_one, Shape.rowMajor_val_two]
  show (q 0).val = 0 * 64 + (q 0).val
  omega

/-- The first layer's output is the reference's. -/
theorem W4_v43 (c : Dev nD) : W4 m ρ c (Proc.devRef .tc main_v43)
    = R.val_main_v48 (F := Ideal) (a0 m c) (a1 m c) (a2 m c) (a3 m c) := by
  refine (W4_arr m ρ c 4).trans ((Comb1.final (V3 m ρ) c).trans ?_)
  show Cert.Spec.combine (M := 100000) (N := 128) (W3 m ρ c (Proc.devRef .tc main_v40)) (W3 m ρ c (Proc.devRef .tc main_v27))
    (fun r => W3 m ρ c (Proc.devRef .tc main_v41) (ix2 (r 0) 0)) (fun q => W3 m ρ c (Proc.devRef .tc main_v42) (ix2 0 (q 0))) = _
  rw [W3_v40, W3_v27, W3_v41, W3_v42, col_read, row_read128]
  exact (Cert.ReferenceIdeal.RefSpec.out1_eq _ _ _ _).symm

/-! ## What the second and third regions leave alone, and the second dense product -/

theorem W3_keep (c : Dev nD) (b : Ref sig .tc) (h : StableHlo.after hostOps1 (W2 m ρ c) (Proc.devRef .tc b) = W2 m ρ c (Proc.devRef .tc b)) :
    W3 m ρ c (Proc.devRef .tc b) = W2 m ρ c (Proc.devRef .tc b) := h

theorem W4_v1 (c : Dev nD) : W4 m ρ c (Proc.devRef .tc main_v1) = R.val_main_v1 (F := Ideal) (a1 m c) :=
  (W4_of_ne m ρ c main_v1 (by decide)).trans ((W3_keep m ρ c main_v1 (by after_results_simp)).trans (W2_v1 m ρ c))
theorem W4_v3 (c : Dev nD) : W4 m ρ c (Proc.devRef .tc main_v3) = R.val_main_v3 (F := Ideal) (a1 m c) :=
  (W4_of_ne m ρ c main_v3 (by decide)).trans ((W3_keep m ρ c main_v3 (by after_results_simp)).trans (W2_v3 m ρ c))
theorem W4_v25 (c : Dev nD) : W4 m ρ c (Proc.devRef .tc main_v25) = R.val_main_v26 (F := Ideal) (a1 m c) :=
  (W4_of_ne m ρ c main_v25 (by decide)).trans ((W3_keep m ρ c main_v25 (by after_results_simp)).trans (W2_v25 m ρ c))
theorem W4_v26 (c : Dev nD) : W4 m ρ c (Proc.devRef .tc main_v26) = R.val_main_v40 (F := Ideal) (a1 m c) :=
  (W4_of_ne m ρ c main_v26 (by decide)).trans ((W3_keep m ρ c main_v26 (by after_results_simp)).trans (W2_v26 m ρ c))
theorem W4_arg4 (c : Dev nD) : W4 m ρ c (Proc.devRef .tc main_arg4) = a4 m c :=
  (W4_of_ne m ρ c main_arg4 (by decide)).trans ((W3_keep m ρ c main_arg4 (by after_results_simp)).trans (W2_arg4 m ρ c))
theorem W4_arg5 (c : Dev nD) : W4 m ρ c (Proc.devRef .tc main_arg5) = a5 m c :=
  (W4_of_ne m ρ c main_arg5 (by decide)).trans ((W3_keep m ρ c main_arg5 (by after_results_simp)).trans (W2_arg5 m ρ c))

/-- The second dense product is the reference's. -/
theorem W5_v44 (c : Dev nD) : W5 m ρ c (Proc.devRef .tc main_v44)
    = R.val_main_v49 (F := Ideal) (a0 m c) (a1 m c) (a2 m c) (a3 m c) (a4 m c) := by
  refine (W5_arr m ρ c 2).trans ((Dense2.final (V4 m ρ) c).trans ?_)
  show Cert.Spec.prod (M := 100000) (K := 128) (N := 64) (W4 m ρ c (Proc.devRef .tc main_v43)) (W4 m ρ c (Proc.devRef .tc main_arg4)) = _
  rw [W4_v43, W4_arg4]
  exact (Cert.ReferenceIdeal.RefSpec.h2_eq _ _ _ _ _).symm

theorem W5_v1 (c : Dev nD) : W5 m ρ c (Proc.devRef .tc main_v1) = R.val_main_v1 (F := Ideal) (a1 m c) :=
  (W5_of_ne m ρ c main_v1 (by decide)).trans (W4_v1 m ρ c)
theorem W5_v3 (c : Dev nD) : W5 m ρ c (Proc.devRef .tc main_v3) = R.val_main_v3 (F := Ideal) (a1 m c) :=
  (W5_of_ne m ρ c main_v3 (by decide)).trans (W4_v3 m ρ c)
/-- The edge weights, as the reference's second layer computes them again. -/
theorem W5_v25 (c : Dev nD) : W5 m ρ c (Proc.devRef .tc main_v25) = R.val_main_v71 (F := Ideal) (a1 m c) :=
  (W5_of_ne m ρ c main_v25 (by decide)).trans ((W4_v25 m ρ c).trans (Cert.ReferenceIdeal.RefSpec.coef_again _).symm)
/-- The self weights, as the reference's second layer computes them again. -/
theorem W5_v26 (c : Dev nD) : W5 m ρ c (Proc.devRef .tc main_v26) = R.val_main_v85 (F := Ideal) (a1 m c) :=
  (W5_of_ne m ρ c main_v26 (by decide)).trans ((W4_v26 m ρ c).trans (Cert.ReferenceIdeal.RefSpec.self_again _).symm)
theorem W5_arg5 (c : Dev nD) : W5 m ρ c (Proc.devRef .tc main_arg5) = a5 m c :=
  (W5_of_ne m ρ c main_arg5 (by decide)).trans (W4_arg5 m ρ c)

/-! ## Between the last two regions: the second layer's neighbour sum -/

theorem W6_v57 (c : Dev nD) : W6 m ρ c (Proc.devRef .tc main_v57)
    = R.val_main_v84 (F := Ideal) (a0 m c) (a1 m c) (a2 m c) (a3 m c) (a4 m c) := by
  show StableHlo.after hostOps3 (W5 m ρ c) (Proc.devRef .tc main_v57) = _
  after_results_simp
  rw [W5_v1, W5_v3, W5_v25, W5_v44]
  rfl

theorem W6_v44 (c : Dev nD) : W6 m ρ c (Proc.devRef .tc main_v44)
    = R.val_main_v49 (F := Ideal) (a0 m c) (a1 m c) (a2 m c) (a3 m c) (a4 m c) := by
  show StableHlo.after hostOps3 (W5 m ρ c) (Proc.devRef .tc main_v44) = _
  after_results_simp
  exact W5_v44 m ρ c

theorem W6_v58 (c : Dev nD) : W6 m ρ c (Proc.devRef .tc main_v58) = shapeCast S100000x1 (R.val_main_v85 (F := Ideal) (a1 m c)) shapeCasts_S100000_S100000x1 := by
  show StableHlo.after hostOps3 (W5 m ρ c) (Proc.devRef .tc main_v58) = _
  after_results_simp
  rw [W5_v26]
  rfl

theorem W6_v59 (c : Dev nD) : W6 m ρ c (Proc.devRef .tc main_v59) = shapeCast S1x64 (a5 m c) shapeCasts_S64_S1x64 := by
  show StableHlo.after hostOps3 (W5 m ρ c) (Proc.devRef .tc main_v59) = _
  after_results_simp
  rw [W5_arg5]
  rfl

/-! ## The last region: the result -/

/-- The kernel program's result array is the reference's last stage of the same argument arrays. -/
theorem out_eq (c : Dev nD) : W7 m ρ c (Proc.devRef .tc main_v60)
    = R.val_main_v93 (F := Ideal) (a0 m c) (a1 m c) (a2 m c) (a3 m c) (a4 m c) (a5 m c) := by
  refine (W7_arr m ρ c 4).trans ((Comb3.final (V6 m ρ) c).trans ?_)
  show Cert.Spec.combine (M := 100000) (N := 64) (W6 m ρ c (Proc.devRef .tc main_v57)) (W6 m ρ c (Proc.devRef .tc main_v44))
    (fun r => W6 m ρ c (Proc.devRef .tc main_v58) (ix2 (r 0) 0)) (fun q => W6 m ρ c (Proc.devRef .tc main_v59) (ix2 0 (q 0))) = _
  rw [W6_v57, W6_v44, W6_v58, W6_v59, col_read, row_read64]
  exact (Cert.ReferenceIdeal.RefSpec.out2_eq _ _ _ _ _ _).symm

end Cert.KernelIdeal.KValue

end
-- ==== Proof.lean ====
/-
  The certificate of a two-layer graph convolution: a Pallas program of four kernel regions among host operations
  against its jnp reference, over the extended reals.

  Both programs compute, for each layer, h = x · W (a dense product), the neighbour sum agg = Σ over edges of
  h[src] · coef scattered to dst, and out = max ((agg + h · s) + b, 0), with coef and the self weights s made from
  the in-degrees of the edge array. The kernel program does the two dense products and the two closing steps in
  kernel regions, 2000 rows at a time, and everything between them (the degree normalisation, the gathers, the
  scatter-adds) with the very host operations the reference uses, on the same values. So the proof is: each dense
  region leaves the whole-array product of what it found (a change of float format is the identity at the ideal
  instance, a product into a zero accumulator the plain sum over k), each closing region leaves the whole-array
  closing step of what it found, the reference's stages are those same two functions of its earlier stages, and the
  host operations in between are carried as the reference's own stage functions, never opened. No law of the
  extended reals beyond these readings is used, and finiteness of the inputs is not needed.

  The three frames are the generated ones (the reference's is its generated run with the result dropped); the
  idealization rewrote nothing, so `preserves` is trivial.
-/
import proofs.«139974_j17901423690367_1_alg».proof.Defs
import proofs.«139974_j17901423690367_1_alg».proof.Proof.Gen.Kernel
import proofs.«139974_j17901423690367_1_alg».proof.Proof.Gen.Kernel.Skeleton
import proofs.«139974_j17901423690367_1_alg».proof.Proof.Gen.Kernel.Launch
import proofs.«139974_j17901423690367_1_alg».proof.Proof.Gen.Kernel.Points
import proofs.«139974_j17901423690367_1_alg».proof.Proof.Gen.Kernel.Frame
import proofs.«139974_j17901423690367_1_alg».proof.Proof.Gen.KernelIdeal
import proofs.«139974_j17901423690367_1_alg».proof.Proof.Gen.KernelIdeal.Skeleton
import proofs.«139974_j17901423690367_1_alg».proof.Proof.Gen.KernelIdeal.Launch
import proofs.«139974_j17901423690367_1_alg».proof.Proof.Gen.KernelIdeal.Points
import proofs.«139974_j17901423690367_1_alg».proof.Proof.Gen.KernelIdeal.Frame
import proofs.«139974_j17901423690367_1_alg».proof.Proof.Gen.ReferenceIdeal
import proofs.«139974_j17901423690367_1_alg».proof.Proof.Gen.Pre_finite_inputs
import proofs.«139974_j17901423690367_1_alg».proof.Proof.Gen.ReferenceIdeal.Run
import proofs.«139974_j17901423690367_1_alg».proof.Proof.Gen.ReferenceIdeal.Read
import proofs.«139974_j17901423690367_1_alg».proof.Proof.KRun
import proofs.«139974_j17901423690367_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's last stage of those arguments
    in their result arrays: the kernel program by its run and the value of its last region's array, the reference by
    its run read stage by stage. -/
theorem algebraic : Cert.algebraic_KernelIdeal_ReferenceIdeal := by
  intro m ρ m' ρ' _ hagree
  refine ⟨fun c => Cert.ReferenceIdeal.Read.val_main_v93 (F := Ideal)
      (Cert.KernelIdeal.KValue.a0 m c) (Cert.KernelIdeal.KValue.a1 m c) (Cert.KernelIdeal.KValue.a2 m c)
      (Cert.KernelIdeal.KValue.a3 m c) (Cert.KernelIdeal.KValue.a4 m c) (Cert.KernelIdeal.KValue.a5 m c), ?_, ?_⟩
  · exact (θ_run Cert.KernelIdeal.defs _ _).mono
      (fun r h c => ⟨(h c).1.trans (Cert.KernelIdeal.KValue.out_eq m ρ c), (h c).2⟩)
      (Cert.KernelIdeal.Gen.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v93_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
